-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S8192x1024 : Shape := ⟨2, ![8192, 1024]⟩
abbrev S16384 : Shape := ⟨1, ![16384]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16384x1024 .f32) (main_arg1 : FVec F S8192x1024 .f32) (main_arg2 : IVec S16384 32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 1 := constantI S_ 1 1#1
  let main_v11 : IVec S_ 1 := (fun x v => Host.reduce IntOp.andi x v reducesTo_S16384_S_d0 h_S_) main_v10 main_c_3
  let main_v12 : IVec S_ 1 := andi main_v8 main_v11
  let main_c_4 : IVec S_ 32 := constantI S_ 32 8192#32
  let main_v13 : IVec S16384 32 := broadcastInDim S16384 ![] bcast_S_S16384 main_c_4
  let main_v14 : IVec S16384 1 := cmpi .slt main_arg2 main_v13
  let main_c_5 : IVec S_ 1 := constantI S_ 1 1#1
  let main_v15 : IVec S_ 1 := (fun x v => Host.reduce IntOp.andi x v reducesTo_S16384_S_d0 h_S_) main_v14 main_c_5
  fn_part1 (F := F) main_v12 main_v15
-- ==== Kernel.lean ====
abbrev S16384x1024 : Shape := ⟨2, ![16384, 1024]⟩
abbrev S8192x1024 : Shape := ⟨2, ![8192, 1024]⟩
abbrev S16384 : Shape := ⟨1, ![16384]⟩
abbrev S_ : Shape := ⟨0, ![]⟩
abbrev S16384x1 : Shape := ⟨2, ![16384, 1]⟩
abbrev S16x128 : Shape := ⟨2, ![16, 128]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 25
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S8192x1024, .f32⟩
  | .hbm, ⟨2, _⟩ => ⟨S16384, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S16384x1, .i32⟩
  | .hbm, ⟨19, _⟩ => ⟨S16384x1024, .f32⟩
  | .hbm, ⟨20, _⟩ => ⟨S16x128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_c_1 : Ref sig .tc := ⟨.hbm, 11, rfl⟩
abbrev main_v1 : Ref sig .tc := ⟨.hbm, 12, rfl⟩
abbrev main_v2 : Ref sig .tc := ⟨.hbm, 13, rfl⟩
abbrev main_c_2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  inb_S8x128_S8x128_0_0 : ∀ a, (![0, 0] : Fin 2 → Nat) a + S8x128.size a ≤ S8x128.size a
  h_S8x128 : 0 < S8x128.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  reducesTo_S16x128_S_d0_1 : S16x128.ReducesTo [0, 1] S_
  h_S_ : 0 < S_.numel
  gather_S8192x1024_S16384x1_S16384x1024_1_0_n_n_0_1_11024_wf : GatherDims.WF S8192x1024 S16384x1 S16384x1024 [1] [0] [] [0] [] 1 ![1, 1024]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

def gather_S8192x1024_S16384x1_S16384x1024_1_0_n_n_0_1_11024 : GatherDims S8192x1024 S16384x1 S16384x1024 where
  offsetDims := [1]
  collapsedSliceDims := [0]
  operandBatchingDims := []
  startIndicesBatchingDims := []
  startIndexMap := [0]
  indexVectorDim := 1
  sliceSizes := ![1, 1024]
  wf := gather_S8192x1024_S16384x1_S16384x1024_1_0_n_n_0_1_11024_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S8192x1024 : Shape := ⟨2, ![8192, 1024]⟩
abbrev S16384 : Shape := ⟨1, ![16384]⟩
abbrev S_ : Shape := ⟨0, ![]⟩
abbrev S16384x1 : Shape := ⟨2, ![16384, 1]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8192x1024, .f32⟩
  | .hbm, ⟨2, _⟩ => ⟨S16384, .i32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  reducesTo_S16384x1024_S16384_d1 : S16384x1024.ReducesTo [1] S16384
  h_S_ : 0 < S_.numel
  reducesTo_S16384_S_d0 : S16384.ReducesTo [0] S_
  gather_S8192x1024_S16384x1_S16384x1024_1_0_n_n_0_1_11024_wf : GatherDims.WF S8192x1024 S16384x1 S16384x1024 [1] [0] [] [0] [] 1 ![1, 1024]

variable [Facts₀]

def gather_S8192x1024_S16384x1_S16384x1024_1_0_n_n_0_1_11024 : GatherDims S8192x1024 S16384x1 S16384x1024 where
  offsetDims := [1]
  collapsedSliceDims := [0]
  operandBatchingDims := []
  startIndicesBatchingDims := []
  startIndexMap := [0]
  indexVectorDim := 1
  sliceSizes := ![1, 1024]
  wf := gather_S8192x1024_S16384x1_S16384x1024_1_0_n_n_0_1_11024_wf

class Facts : Prop extends Facts₀ where

variable [Facts]
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.MeanDistance.lean ====
/-
  The mean Euclidean distance between the rows of two 16384 x 1024 arrays over the extended reals:
  the distance of row i is the square root of the sum over the 1024 lanes of the squared differences, and the
  result is the sum of the 16384 row distances divided by 16384.

  A sum over the 16384 rows is also the sum, over 32 tiles of 512 consecutive rows, of each tile's sum; and a sum
  over the 32 tiles is the sum over the first 16 plus the sum over the last 16. Addition of extended reals is
  commutative and associative, so these regroupings need no finiteness.
-/
import Idealize.ShloMosaic.PureOps.Ideal
import Idealize.ShloMosaic.PureOps.Ideal.Laws
import Idealize.ShloMosaic.Lib.ValueIdx

noncomputable section

open scoped BigOperators

namespace Cert.MeanDistance

open Idealize.ShloMosaic Idealize.ShloMosaic.ValueIdx

/-- The shape of both arrays. -/
abbrev Rows : Shape := ⟨2, ![16384, 1024]⟩

variable (x y : Rows.Idx → EReal)

/-- The squared distance of row `i`: the sum over the lanes of the squared differences. -/
def rowSq (i : Fin 16384) : EReal :=
  ∑ d : Fin 1024, (x (ix2 i d) - y (ix2 i d)) * (x (ix2 i d) - y (ix2 i d))

/-- The distance of row `i`. -/
def rowDist (i : Fin 16384) : EReal := Ideal.sqrt (rowSq x y i)

/-- The distance of row `n` for a natural number `n`, zero past the last row. -/
def rowDistN (n : ℕ) : EReal := if h : n < 16384 then rowDist x y ⟨n, h⟩ else 0

/-- The sum of the distances of the 512 rows of tile `t`. -/
def tileSum (t : ℕ) : EReal := ∑ r ∈ Finset.range 512, rowDistN x y (512 * t + r)

/-- The sum of all row distances. -/
def total : EReal := ∑ i : Fin 16384, rowDist x y i

/-- A sum over `m` groups of `n` consecutive naturals is the sum over the first `m * n` naturals. -/
theorem sum_groups (f : ℕ → EReal) (n : ℕ) :
    ∀ m : ℕ, ∑ a ∈ Finset.range m, ∑ b ∈ Finset.range n, f (n * a + b) = ∑ i ∈ Finset.range (m * n), f i
  | 0 => by simp
  | m + 1 => by
    rw [Finset.sum_range_succ, sum_groups f n m, Nat.succ_mul, Finset.sum_range_add, Nat.mul_comm n m]

/-- The total is the sum of the 32 tile sums. -/
theorem total_eq_tiles : total x y = ∑ t ∈ Finset.range 32, tileSum x y t := by
  unfold total tileSum
  rw [sum_groups (rowDistN x y) 512 32, Finset.sum_range]
  refine Finset.sum_congr rfl fun i _ => ?_
  unfold rowDistN
  rw [dif_pos i.isLt]

/-- The sum over the 32 tiles is the sum over the first 16 plus the sum over the last 16. -/
theorem tiles_halves (g : ℕ → EReal) :
    ∑ t ∈ Finset.range 32, g t = ∑ s ∈ Finset.range 16, g s + ∑ s ∈ Finset.range 16, g (16 + s) :=
  Finset.sum_range_add g 16 16

/-! ## A running sum that restarts every 16 points -/

/-- The running sum of `g` over the points, restarted at every multiple of 16: at a multiple of 16 it is `g` there,
    elsewhere what it was at the point before plus `g` there. -/
def running (g : ℕ → EReal) : ℕ → EReal
  | 0 => g 0
  | n + 1 => if (n + 1) % 16 = 0 then g (n + 1) else running g n + g (n + 1)

theorem running_restart (g : ℕ → EReal) (n : ℕ) (h : n % 16 = 0) : running g n = g n := by
  cases n with
  | zero => rfl
  | succ n => simp only [running, if_pos h]

theorem running_step (g : ℕ → EReal) (n : ℕ) (h : ¬(n + 1) % 16 = 0) : running g (n + 1) = running g n + g (n + 1) := by
  simp only [running, if_neg h]

/-- So at the point `16 q + j`, `j < 16`, it is the sum of `g` over the points `16 q, …, 16 q + j`. -/
theorem running_eq_sum (g : ℕ → EReal) (q : ℕ) :
    ∀ j : ℕ, j < 16 → running g (16 * q + j) = ∑ s ∈ Finset.range (j + 1), g (16 * q + s)
  | 0, _ => by
    rw [Finset.sum_range_one]
    exact running_restart g _ (by omega)
  | j + 1, hj => by
    rw [Finset.sum_range_succ, ← running_eq_sum g q j (by omega)]
    exact running_step g (16 * q + j) (by omega)

/-! ## The sum of a 16 x 128 array that is zero off two entries -/

/-- An array holding `C q` at row `8 q`, column 0 (q = 0, 1) and zero elsewhere sums to `C 0 + C 1`. -/
theorem sum_two_corners (C : ℕ → EReal) :
    ∑ i : (⟨2, ![16, 128]⟩ : Shape).Idx, (if (i 0).val % 8 = 0 ∧ (i 1).val = 0 then C ((i 0).val / 8) else 0)
      = C 0 + C 1 := by
  rw [sum_idx2]
  have inner : ∀ a : Fin 16,
      (∑ b : Fin 128, (if ((ix2 a b : (⟨2, ![16, 128]⟩ : Shape).Idx) 0).val % 8 = 0
          ∧ ((ix2 a b : (⟨2, ![16, 128]⟩ : Shape).Idx) 1).val = 0
        then C (((ix2 a b : (⟨2, ![16, 128]⟩ : Shape).Idx) 0).val / 8) else 0))
        = if a.val % 8 = 0 then C (a.val / 8) else 0 := by
    intro a
    rw [Finset.sum_eq_single (0 : Fin 128)]
    · show (if a.val % 8 = 0 ∧ (0 : Fin 128).val = 0 then C (a.val / 8) else 0) = _
      simp
    · intro b _ hb
      show (if a.val % 8 = 0 ∧ b.val = 0 then C (a.val / 8) else 0) = 0
      rw [if_neg]
      intro h
      exact hb (Fin.ext h.2)
    · intro h
      exact absurd (Finset.mem_univ _) h
  simp only [inner]
  rw [← Finset.sum_range (fun a => if a % 8 = 0 then C (a / 8) else 0)]
  simp [Finset.sum_range_succ]

/-! ## One tile from its two blocks -/

/-- The shape of a tile's block: 512 rows. -/
abbrev Tile : Shape := ⟨2, ![512, 1024]⟩

/-- The sum of the 512 row distances of one tile, from the tile's block of each array. -/
def tileVal (a b : Tile.Idx → EReal) : EReal :=
  ∑ r : Fin 512, Ideal.sqrt (∑ d : Fin 1024, (a (ix2 r d) - b (ix2 r d)) * (a (ix2 r d) - b (ix2 r d)))

/-- Tile `t` of an array: its rows 512 t, …, 512 t + 511. -/
def tileOf (z : Rows.Idx → EReal) (t : ℕ) (ht : t < 32) : Tile.Idx → EReal :=
  fun j => z (ix2 (⟨512 * t + (j 0).val, by have := idx2_lt0 j; omega⟩ : Fin 16384) (j 1))

/-- The tile value of the two arrays' tiles `t` is the sum of the distances of the rows of tile `t`. -/
theorem tileVal_tileOf (t : ℕ) (ht : t < 32) : tileVal (tileOf x t ht) (tileOf y t ht) = tileSum x y t := by
  unfold tileVal tileSum
  rw [Finset.sum_range]
  refine Finset.sum_congr rfl fun r _ => ?_
  unfold rowDistN
  rw [dif_pos (by have := r.isLt; omega)]
  rfl

end Cert.MeanDistance

end
-- ==== Proof.TilePayload.lean ====
/-
  The arithmetic of one grid point: from the tile's two input blocks a and b and the 1 x 1 corner acc of the output
  block, the body stores acc + the sum over the tile's 512 rows of sqrt (sum over the 1024 lanes of (a - b)^2).
  The lane sum and the row sum are plain sums over the extended reals, the casts between a length-n vector and an
  n x 1 column move no element.
-/
import proofs.«425914_j62294205661187_2_alg».proof.Proof.Gen.KernelIdeal.Skeleton
import proofs.«425914_j62294205661187_2_alg».proof.Proof.LibColumn
import proofs.«425914_j62294205661187_2_alg».proof.Proof.MeanDistance
import Idealize.ShloMosaic.Lib.Pipeline.Value
import Idealize.ShloMosaic.Lib.ValueIdx
import Idealize.ShloMosaic.PureOps.Ideal.Laws

noncomputable section

namespace Cert.KernelIdeal.TilePayload

open Idealize.ShloMosaic Idealize.ShloMosaic.ValueIdx Cert.KernelIdeal Cert.KernelIdeal.Gen Cert.MeanDistance

/-- The lane sum of a 512 x 1024 block, at row `r`: the sum over the row's 1024 lanes. -/
theorem laneSum_apply (src : FVec Ideal S512x1024 .f32) (h : S512x1024.Reduces [1] S512) (hφ : FKind.Formats .f32)
    (hacc : (0x00000000#32 : BitVec 32) = 0x00000000#32) (r : Fin 512) :
    multiReduction .add [1] S512 src 0x00000000#32 h hφ hacc (ix1 r) = ∑ d : Fin 1024, src (ix2 r d) :=
  (Ideal.multiReduction_add_single src 0x00000000#32 h hφ hacc (ix1 r)).trans
    (Finset.sum_congr rfl fun d _ => congrArg src (funext fun a => Fin.ext (by
      match a with
      | ⟨0, _⟩ => rfl
      | ⟨1, _⟩ => rfl)))

/-- The sum down a 512 x 1 column: the sum of its 512 entries. -/
theorem colSum_apply (src : FVec Ideal S512x1 .f32) (h : S512x1.Reduces [0] S1) (hφ : FKind.Formats .f32)
    (hacc : (0x00000000#32 : BitVec 32) = 0x00000000#32) (u : Fin 1) :
    multiReduction .add [0] S1 src 0x00000000#32 h hφ hacc (ix1 u) = ∑ r : Fin 512, src (ix2 r u) :=
  (Ideal.multiReduction_add_single src 0x00000000#32 h hφ hacc (ix1 u)).trans
    (Finset.sum_congr rfl fun r _ => congrArg src (funext fun a => Fin.ext (by
      match a with
      | ⟨0, _⟩ => rfl
      | ⟨1, _⟩ => rfl)))

/-- The stored 1 x 1 value: the corner read before, plus the tile's sum of row distances. -/
theorem pay2_apply (a b : Vec Ideal S512x1024 .f32) (acc : Vec Ideal S1x1 .f32) (u v : Fin 1) :
    k0_pay2 (F := Ideal) a b acc (ix2 u v) = acc (ix2 u v) + tileVal a b := by
  unfold k0_pay2
  rw [addf_apply, shapeCast_self, Cert.LibColumn.shapeCast_a_a1_apply]
  refine congrArg (acc (ix2 u v) + ·) ?_
  refine (colSum_apply _ _ _ _ u).trans ?_
  unfold tileVal
  refine Finset.sum_congr rfl fun r _ => ?_
  show Ideal.sqrt (shapeCast S512x1 _ _ (ix2 r u)) = _
  rw [Cert.LibColumn.shapeCast_a_a1_apply]
  refine congrArg Ideal.sqrt ?_
  refine (laneSum_apply _ _ _ _ r).trans ?_
  refine Finset.sum_congr rfl fun d _ => ?_
  rw [shapeCast_self]
  rfl

end Cert.KernelIdeal.TilePayload

end
-- ==== Proof.Pieces.lean ====
/-
  What one grid point leaves in the 8 x 128 output block, read entry by entry over the extended reals.
  At the first point of a core's run (case A) the body fills the block with zeros and then adds the tile's sum of
  row distances into the corner (0, 0): the corner holds 0 + that sum, every other entry 0.
  At a later point (case B) the body adds the tile's sum into the corner of what the point before left: the corner
  holds the old corner + that sum, every other entry is unchanged.
-/
import proofs.«425914_j62294205661187_2_alg».proof.Proof.Gen.KernelIdeal.Frame
import proofs.«425914_j62294205661187_2_alg».proof.Proof.TilePayload
import Idealize.ShloMosaic.Lib.Pipeline.Value
import Idealize.ShloMosaic.Lib.Tactic

noncomputable section

namespace Cert.KernelIdeal.Pieces

open Idealize.ShloMosaic Idealize.ShloMosaic.TcCoe Idealize.ShloMosaic.ValueIdx Idealize.SL.Sem
open Cert.KernelIdeal Cert.KernelIdeal.Gen Cert.MeanDistance Cert.KernelIdeal.TilePayload

theorem hz : (![0, 0] : Fin 2 → Nat) = fun _ => 0 := funext fun a => by fin_cases a <;> rfl

/-- The corner of the output block. -/
abbrev corner : S8x128.Idx := ix2 (0 : Fin 8) (0 : Fin 128)

/-- The one index of the 1 x 1 rectangle. -/
abbrev unit11 : S1x1.Idx := ix2 (0 : Fin 1) (0 : Fin 1)

/-- The 1 x 1 rectangle at the block's corner holds the corner, -/
theorem corner_eq_emb :
    corner = (Rect.unit (s := S8x128) ![0, 0] ![1, 1] inb_S8x128_S1x1_0_0).emb unit11 := by
  funext a; apply Fin.ext
  match a with
  | ⟨0, _⟩ => rfl
  | ⟨1, _⟩ => rfl

/-- and nothing else. -/
theorem not_mem_of_ne {y : S8x128.Idx} (hy : y ≠ corner) :
    y ∉ (Rect.unit (s := S8x128) ![0, 0] ![1, 1] inb_S8x128_S1x1_0_0).set := by
  intro hm
  rw [Rect.mem_set_unit] at hm
  apply hy
  funext a; apply Fin.ext
  match a with
  | ⟨0, _⟩ => have := (hm 0).2; show (y 0).val = 0; simp at this; omega
  | ⟨1, _⟩ => have := (hm 1).2; show (y 1).val = 0; simp at this; omega

/-- The zero fill reads the extended real 0 everywhere. -/
theorem pay1_apply (y : S8x128.Idx) : k0_pay1 (F := Ideal) y = 0 := by
  unfold k0_pay1
  show Ideal.ofBits .f32 0x00000000#32 = 0
  exact Ideal.ofBits_zero_f32

section CaseB

variable (c : Dev nD) (i : grid0.Coords) (a2 : Memref sig .tc .vmem S512x1024 .f32) (h2 : a2.IsWhole)
  (a3 : Memref sig .tc .vmem S512x1024 .f32) (h3 : a3.IsWhole) (a4 : Memref sig .tc .vmem S8x128 .f32) (h4 : a4.IsWhole)
  (hc : ¬cond0_0 i) (x0 x1 : Vec Ideal S512x1024 .f32) (xo : Vec Ideal S8x128 .f32)

/-- Case B, the corner: the old corner plus the tile's sum. -/
theorem out_B_corner : out0_B_2 c i a2 h2 a3 h3 a4 h4 hc x0 x1 xo corner = xo corner + tileVal x0 x1 := by
  unfold out0_B_2 kernelRun0_B
  dsimp only
  rw [corner_eq_emb, View.read_writes_cons_emb, pay2_apply]
  simp only [View.readAt_eq_ld, h2.read_unread, h3.read_unread, h4.read_unread, View.ld_unit_zero (S := S512x1024) hz]
  rfl

/-- Case B, any other entry: unchanged. -/
theorem out_B_rest {y : S8x128.Idx} (hy : y ≠ corner) : out0_B_2 c i a2 h2 a3 h3 a4 h4 hc x0 x1 xo y = xo y := by
  unfold out0_B_2 kernelRun0_B
  dsimp only
  rw [View.writes_cons, View.read_slice_write_of_not_mem _ _ _ _ (by rw [Rect.map_emb_univ]; exact not_mem_of_ne hy),
    View.writes_nil, h4.read_unread]

end CaseB

section CaseA

variable (c : Dev nD) (i : grid0.Coords) (a2 : Memref sig .tc .vmem S512x1024 .f32) (h2 : a2.IsWhole)
  (a3 : Memref sig .tc .vmem S512x1024 .f32) (h3 : a3.IsWhole) (a4 : Memref sig .tc .vmem S8x128 .f32) (h4 : a4.IsWhole)
  (hc : cond0_0 i) (x0 x1 : Vec Ideal S512x1024 .f32)

/-- Case A, the corner: zero plus the tile's sum. -/
theorem out_A_corner : out0_A_2 c i a2 h2 a3 h3 a4 h4 hc x0 x1 corner = 0 + tileVal x0 x1 := by
  unfold out0_A_2
  rw [View.read_writes_eq_canon _ _ _ (cover0_A_2 c i a2 h2 a3 h3 a4 h4 hc x0 x1)]
  unfold kernelRun0_A
  dsimp only
  sl_unfold_words
  rw [corner_eq_emb, View.canon_cons_emb, pay2_apply]
  simp only [View.readAt_eq_ld, h2.read_unread, h3.read_unread, View.ld_unit_zero (S := S512x1024) hz]
  refine congrArg (· + tileVal x0 x1) ?_
  refine (congrFun (View.readCov_eq_canon _ _ _ (fun j => ⟨_, List.mem_singleton_self _, ?_⟩)) _).trans ?_
  · exact View.mem_set_unit_zero (S := S8x128) hz inb_S8x128_S8x128_0_0 _
  · rw [View.canon_unit_zero hz]
    exact pay1_apply _

/-- Case A, any other entry: zero. -/
theorem out_A_rest {y : S8x128.Idx} (hy : y ≠ corner) : out0_A_2 c i a2 h2 a3 h3 a4 h4 hc x0 x1 y = 0 := by
  unfold out0_A_2
  rw [View.read_writes_eq_canon _ _ _ (cover0_A_2 c i a2 h2 a3 h3 a4 h4 hc x0 x1)]
  unfold kernelRun0_A
  dsimp only
  sl_unfold_words
  rw [View.canon_cons_of_not_mem, View.canon_unit_zero hz]
  · exact pay1_apply _
  · exact not_mem_of_ne hy

end CaseA

end Cert.KernelIdeal.Pieces

end
-- ==== Proof.Accumulate.lean ====
/-
  The output block's contents after each grid point, over the extended reals.
  The grid's 32 points are numbered 16 c + j for core c and step j. At point n the two input windows hold tile n of
  the inputs array and of the gathered array (rows 512 n, …, 512 n + 511), so the value the body adds into the corner
  is the sum of the row distances of tile n. By induction on the point, after point n the corner of the block holds
  the running sum of those tile sums since the last multiple of 16, and every other entry is zero.
-/
import proofs.«425914_j62294205661187_2_alg».proof.Proof.Pieces

noncomputable section

namespace Cert.KernelIdeal.Accum

open Idealize.ShloMosaic Idealize.ShloMosaic.TcCoe Idealize.ShloMosaic.ValueIdx Idealize.SL.Sem
open Cert.KernelIdeal Cert.KernelIdeal.Gen Cert.MeanDistance Cert.KernelIdeal.Pieces

variable (m : (ℓ : Loc nD τ sig) → Buf (Elt Ideal) ℓ)

/-- The inputs array and the gathered array, as the region finds them. -/
abbrev xarr (c : Dev nD) : Vec Ideal S16384x1024 .f32 := V m c main_arg0
abbrev yarr (c : Dev nD) : Vec Ideal S16384x1024 .f32 := V m c main_v7

/-- The two input windows' blocks at point `t`. -/
abbrev xblk (c : Dev nD) (t : Fin cfg0.N) : Vec Ideal S512x1024 .f32 := iblk m c 0 t
abbrev yblk (c : Dev nD) (t : Fin cfg0.N) : Vec Ideal S512x1024 .f32 := iblk m c 1 t

theorem lt32 (t : Fin cfg0.N) : t.val < 32 := lt_of_lt_of_eq t.isLt (show cfg0.N = 32 from N_0)

/-- Both input windows' block index at point `t` is (t, 0). -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)

/-- The first window's block at point `t` is tile `t` of the inputs array. -/
theorem xblk_eq (c : Dev nD) (t : Fin cfg0.N) : xblk m c t = tileOf (xarr m c) t.val (lt32 t) := by
  funext j
  unfold xblk iblk tileOf
  rw [View.read_apply]
  show V m c main_arg0 _ = V m c main_arg0 _
  congr 1
  funext a
  apply Fin.ext
  match a with
  | ⟨0, _⟩ => show win0_0.index t 0 * 512 + 1 * (j 0).val = 512 * t.val + (j 0).val; rw [(index0 t).1]; omega
  | ⟨1, _⟩ => show win0_0.index t 1 * 1024 + 1 * (j 1).val = (j 1).val; rw [(index0 t).2]; omega

/-- The second window's block at point `t` is tile `t` of the gathered array. -/
theorem yblk_eq (c : Dev nD) (t : Fin cfg0.N) : yblk m c t = tileOf (yarr m c) t.val (lt32 t) := by
  funext j
  unfold yblk iblk tileOf
  rw [View.read_apply]
  show V m c main_v7 _ = V m c main_v7 _
  congr 1
  funext a
  apply Fin.ext
  match a with
  | ⟨0, _⟩ => show win0_1.index t 0 * 512 + 1 * (j 0).val = 512 * t.val + (j 0).val; rw [(index1 t).1]; omega
  | ⟨1, _⟩ => show win0_1.index t 1 * 1024 + 1 * (j 1).val = (j 1).val; rw [(index1 t).2]; omega

/-- The sum of the row distances of tile `n` of the two arrays. -/
abbrev tv (c : Dev nD) (n : ℕ) : EReal := tileSum (xarr m c) (yarr m c) n

/-- What the body adds at point `t` is tile `t`'s sum. -/
theorem tileVal_blk (c : Dev nD) (t : Fin cfg0.N) : tileVal (xblk m c t) (yblk m c t) = tv m c t.val := by
  rw [xblk_eq, yblk_eq]
  exact tileVal_tileOf _ _ _ _

/-- After point `n`: the corner holds the running sum of the tile sums, the rest is zero. -/
theorem outsAt_inv (c : Dev nD) : ∀ (n : ℕ) (hn : n < cfg0.N),
    outsAt0 m c n hn corner = running (tv m c) n ∧ ∀ y : S8x128.Idx, y ≠ corner → outsAt0 m c n hn y = 0
  | 0, hn => by
    have e := outsAt0_A m c ⟨0, hn⟩ rfl
    constructor
    · refine (congrFun e corner).trans ?_
      refine (out_A_corner c (grid0.coords ⟨0, hn⟩) (ms0_0 ⟨0, hn⟩) (hs0_0 ⟨0, hn⟩) (ms0_1 ⟨0, hn⟩) (hs0_1 ⟨0, hn⟩)
        (ms0_2 ⟨0, hn⟩) (hs0_2 ⟨0, hn⟩) ((hcond0_0 ⟨0, hn⟩).mpr rfl) (xblk m c ⟨0, hn⟩) (yblk m c ⟨0, hn⟩)).trans ?_
      rw [zero_add, tileVal_blk]
      rfl
    · intro y hy
      refine (congrFun e y).trans ?_
      exact out_A_rest c (grid0.coords ⟨0, hn⟩) (ms0_0 ⟨0, hn⟩) (hs0_0 ⟨0, hn⟩) (ms0_1 ⟨0, hn⟩) (hs0_1 ⟨0, hn⟩)
        (ms0_2 ⟨0, hn⟩) (hs0_2 ⟨0, hn⟩) ((hcond0_0 ⟨0, hn⟩).mpr rfl) (xblk m c ⟨0, hn⟩) (yblk m c ⟨0, hn⟩) hy
  | n + 1, hn => by
    have ih := outsAt_inv c n (Nat.lt_of_succ_lt hn)
    by_cases h0 : (n + 1) % 16 = 0
    · have e := outsAt0_A m c ⟨n + 1, hn⟩ h0
      constructor
      · refine (congrFun e corner).trans ?_
        refine (out_A_corner c (grid0.coords ⟨n + 1, hn⟩) (ms0_0 ⟨n + 1, hn⟩) (hs0_0 ⟨n + 1, hn⟩) (ms0_1 ⟨n + 1, hn⟩)
          (hs0_1 ⟨n + 1, hn⟩) (ms0_2 ⟨n + 1, hn⟩) (hs0_2 ⟨n + 1, hn⟩) ((hcond0_0 ⟨n + 1, hn⟩).mpr h0)
          (xblk m c ⟨n + 1, hn⟩) (yblk m c ⟨n + 1, hn⟩)).trans ?_
        rw [zero_add, tileVal_blk, running_restart _ _ h0]
      · intro y hy
        refine (congrFun e y).trans ?_
        exact out_A_rest c (grid0.coords ⟨n + 1, hn⟩) (ms0_0 ⟨n + 1, hn⟩) (hs0_0 ⟨n + 1, hn⟩) (ms0_1 ⟨n + 1, hn⟩)
          (hs0_1 ⟨n + 1, hn⟩) (ms0_2 ⟨n + 1, hn⟩) (hs0_2 ⟨n + 1, hn⟩) ((hcond0_0 ⟨n + 1, hn⟩).mpr h0)
          (xblk m c ⟨n + 1, hn⟩) (yblk m c ⟨n + 1, hn⟩) hy
    · have e := outsAt0_B m c ⟨n + 1, hn⟩ h0
      constructor
      · refine (congrFun e corner).trans ?_
        refine (out_B_corner c (grid0.coords ⟨n + 1, hn⟩) (ms0_0 ⟨n + 1, hn⟩) (hs0_0 ⟨n + 1, hn⟩) (ms0_1 ⟨n + 1, hn⟩)
          (hs0_1 ⟨n + 1, hn⟩) (ms0_2 ⟨n + 1, hn⟩) (hs0_2 ⟨n + 1, hn⟩) (fun h => h0 ((hcond0_0 ⟨n + 1, hn⟩).mp h))
          (xblk m c ⟨n + 1, hn⟩) (yblk m c ⟨n + 1, hn⟩) (outsAt0 m c n (Nat.lt_of_succ_lt hn))).trans ?_
        rw [tileVal_blk, running_step _ _ h0, ih.1]
      · intro y hy
        refine (congrFun e y).trans ?_
        refine (out_B_rest c (grid0.coords ⟨n + 1, hn⟩) (ms0_0 ⟨n + 1, hn⟩) (hs0_0 ⟨n + 1, hn⟩) (ms0_1 ⟨n + 1, hn⟩)
          (hs0_1 ⟨n + 1, hn⟩) (ms0_2 ⟨n + 1, hn⟩) (hs0_2 ⟨n + 1, hn⟩) (fun h => h0 ((hcond0_0 ⟨n + 1, hn⟩).mp h))
          (xblk m c ⟨n + 1, hn⟩) (yblk m c ⟨n + 1, hn⟩) (outsAt0 m c n (Nat.lt_of_succ_lt hn)) hy).trans ?_
        exact ih.2 y hy

end Cert.KernelIdeal.Accum

end
-- ==== Proof.FinalArray.lean ====
/-
  The region's 16 x 128 output array after the run. Core q (q = 0, 1) owns rows 8 q, …, 8 q + 7; its block is written
  back once, after its last point 16 q + 15, when the block's corner holds the sum of the core's 16 tile sums and
  every other entry is zero. So the array ends with core q's sum at (8 q, 0) and zeros elsewhere; the two blocks
  cover the array.
-/
import proofs.«425914_j62294205661187_2_alg».proof.Proof.Accumulate
import Idealize.ShloMosaic.Lib.Pipeline.Value

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.MeanDistance Cert.KernelIdeal.Pieces Cert.KernelIdeal.Accum

variable (m : (ℓ : Loc nD τ sig) → Buf (Elt Ideal) ℓ)

/-- The sum of the 16 tile sums of core `q`. -/
abbrev coreSum (c : Dev nD) (q : ℕ) : EReal := ∑ s ∈ Finset.range 16, tv m c (16 * q + s)

/-- The output array: core `q`'s sum at row 8 q, column 0; zero elsewhere. -/
def outArr (c : Dev nD) : Vec Ideal S16x128 .f32 :=
  fun i => if (i 0).val % 8 = 0 ∧ (i 1).val = 0 then coreSum m c ((i 0).val / 8) else 0

/-- The output window's block index at point `t` is (t / 16, 0). -/
theorem index2 : ∀ t : Fin cfg0.N, win0_2.index t 0 = t.val / 16 ∧ win0_2.index t 1 = 0 :=
  (by decide +kernel : ∀ t : Fin grid0.N, win0_2.index t 0 = t.val / 16 ∧ win0_2.index t 1 = 0)

/-- What a flushing point writes back is its block of the output array. -/
theorem flushed_eq (c : Dev nD) (t : Fin cfg0.N) (hf : (cfg0.win 2).flush t = true) :
    (dats m 0 c).flushed 2 t = ((cfg0.win 2).blk t).view.read (Elt Ideal) (outArr m c) := by
  have h15 : t.val % 16 = 15 := (flush0_2 t).mp hf
  have h32 := lt32 t
  funext y
  rw [View.read_apply]
  show (dats m 0 c).after 2 t ((cfg0.win 2).xinj (cfg0.grid.coords t) y) = outArr m c (((cfg0.win 2).blk t).view.emb y)
  rw [after0_2]
  have hemb0 : ((((cfg0.win 2).blk t).view.emb y) 0).val = 8 * (t.val / 16) + (y 0).val := by
    show win0_2.index t 0 * 8 + 1 * (y 0).val = _
    rw [(index2 t).1]; omega
  have hemb1 : ((((cfg0.win 2).blk t).view.emb y) 1).val = (y 1).val := by
    show win0_2.index t 1 * 128 + 1 * (y 1).val = _
    rw [(index2 t).2]; omega
  have hy0 : (y 0).val < 8 := (y 0).isLt
  unfold outArr
  by_cases hy : (y 0).val = 0 ∧ (y 1).val = 0
  · have hc : (cfg0.win 2).xinj (cfg0.grid.coords t) y = corner := by
      funext a; apply Fin.ext
      match a with
      | ⟨0, _⟩ => exact hy.1
      | ⟨1, _⟩ => exact hy.2
    rw [hc, (outsAt_inv m c t.val t.isLt).1, if_pos ⟨by rw [hemb0]; omega, by rw [hemb1]; exact hy.2⟩, hemb0,
      show (8 * (t.val / 16) + (y 0).val) / 8 = t.val / 16 from by omega]
    have ht : t.val = 16 * (t.val / 16) + 15 := by omega
    conv_lhs => rw [ht]
    exact running_eq_sum _ _ 15 (by omega)
  · have hc : (cfg0.win 2).xinj (cfg0.grid.coords t) y ≠ corner := fun e =>
      hy ⟨congrArg (fun z : S8x128.Idx => (z 0).val) e, congrArg (fun z : S8x128.Idx => (z 1).val) e⟩
    rw [(outsAt_inv m c t.val t.isLt).2 _ hc, if_neg]
    rw [hemb0, hemb1]
    rintro ⟨h1, h2⟩
    exact hy ⟨by omega, h2⟩

/-- Every entry of the array lies in the block of a flushing point. -/
theorem cover (c : Dev nD) (i : S16x128.Idx) :
    ∃ t : Fin cfg0.N, (cfg0.win 2).flush t = true ∧ i ∈ ((cfg0.win 2).blk t).view.set := by
  have h0 : (i 0).val < 16 := (i 0).isLt
  have h1 : (i 1).val < 128 := (i 1).isLt
  have hN : cfg0.N = 32 := N_0
  let t : Fin cfg0.N := ⟨16 * ((i 0).val / 8) + 15, by rw [hN]; omega⟩
  have htv : t.val = 16 * ((i 0).val / 8) + 15 := rfl
  refine ⟨t, (flush0_2 t).mpr (by rw [htv]; omega), ?_⟩
  show i ∈ ((View.whole main_v8).slice (win0_2.rect t)).set
  rw [View.set_slice_whole, Rect.mem_set_unit]
  intro a
  match a with
  | ⟨0, _⟩ =>
    show win0_2.index t 0 * 8 ≤ (i 0).val ∧ (i 0).val < win0_2.index t 0 * 8 + 8
    rw [(index2 t).1, htv]
    omega
  | ⟨1, _⟩ =>
    show win0_2.index t 1 * 128 ≤ (i 1).val ∧ (i 1).val < win0_2.index t 1 * 128 + 128
    rw [(index2 t).2]
    omega

/-- The region's output array after the run. -/
theorem final (c : Dev nD) : (dats m 0 c).arrAt 2 cfg0.N = outArr m c :=
  (dats m 0 c).arrAt_eq_of_cover 2 (outArr m c) (flushed_eq m c) (cover c)

end Cert.KernelIdeal.Final

end
-- ==== Proof.LabelWords.lean ====
/-
  A row label in range, 0 ≤ w < 8192 as a signed 32-bit word, is left alone by both index normalisations the two
  programs apply before the gather: the wrap of a negative index (add 8192 when w < 0) and the clip to [0, 8191].
-/
import Idealize.ShloMosaic.PureOps.Ideal
import Idealize.ShloMosaic.Lib.ValueIdx

namespace Cert.LabelWords

open Idealize.ShloMosaic Idealize.ShloMosaic.ValueIdx

/-- The two comparisons of the precondition, read back as the signed value's range. -/
theorem range_of_cmp {w : BitVec 32} (hge : IntOp.cmpi .sge w 0#32 = 1#1) (hlt : IntOp.cmpi .slt w 8192#32 = 1#1) :
    0 ≤ w.toInt ∧ w.toInt < 8192 := by
  have h0 : (0#32 : BitVec 32).toInt = 0 := by decide
  have h1 : (8192#32 : BitVec 32).toInt = 8192 := by decide
  have ofb : ∀ b : Bool, BitVec.ofBool b = 1#1 → b = true := by intro b; cases b <;> decide
  have a : (0#32 : BitVec 32).sle w = true := ofb _ hge
  have b : w.slt 8192#32 = true := ofb _ hlt
  simp only [BitVec.sle, BitVec.slt, decide_eq_true_eq, h0, h1] at a b
  exact ⟨a, b⟩

/-- A non-negative word is not below zero. -/
theorem not_neg {w : BitVec 32} (h : 0 ≤ w.toInt) : IntOp.cmpi .slt w 0#32 = 0#1 := by
  have h0 : (0#32 : BitVec 32).toInt = 0 := by decide
  unfold IntOp.cmpi
  have : w.slt 0#32 = false := by simp only [BitVec.slt, h0, decide_eq_false_iff_not]; omega
  rw [this]; rfl

/-- The wrap of a negative index leaves a non-negative word alone. -/
theorem wrap_id {w : BitVec 32} (h : 0 ≤ w.toInt) :
    Scalar.select (IntOp.cmpi .slt w 0#32) (IntOp.addi w 8192#32) w = w := by
  rw [not_neg h, select_zero]

/-- The clip to [0, 8191] leaves a word in that range alone. -/
theorem clip_id {w : BitVec 32} (h : 0 ≤ w.toInt) (h' : w.toInt < 8192) :
    IntOp.minsi 8191#32 (IntOp.maxsi 0#32 w) = w := by
  have h0 : (0#32 : BitVec 32).toInt = 0 := by decide
  have h1 : (8191#32 : BitVec 32).toInt = 8191 := by decide
  have e1 : IntOp.maxsi 0#32 w = w := by
    unfold IntOp.maxsi
    rw [if_neg]
    simp only [BitVec.slt, h0, decide_eq_true_eq]; omega
  rw [e1]
  unfold IntOp.minsi
  rw [if_neg]
  simp only [BitVec.slt, h1, decide_eq_true_eq]; omega

/-! ## The same, for a vector of labels -/

section Vectors

variable {s : Shape}

/-- The wrap of negative indices leaves a vector of non-negative labels alone. -/
theorem wrap_vec (lab z e : IVec s 32) (hz : ∀ i, z i = 0#32) (he : ∀ i, e i = 8192#32) (hr : ∀ i, 0 ≤ (lab i).toInt) :
    select (cmpi .slt lab z) (addi lab e) lab = lab := by
  funext i
  show Scalar.select (IntOp.cmpi .slt (lab i) (z i)) (IntOp.addi (lab i) (e i)) (lab i) = lab i
  rw [hz, he]
  exact wrap_id (hr i)

/-- The clip to [0, 8191] leaves a vector of labels in that range alone. -/
theorem clip_vec (lab lo hi : IVec s 32) (hlo : ∀ i, lo i = 0#32) (hhi : ∀ i, hi i = 8191#32)
    (hr : ∀ i, 0 ≤ (lab i).toInt ∧ (lab i).toInt < 8192) : minsi hi (maxsi lo lab) = lab := by
  funext i
  show IntOp.minsi (hi i) (IntOp.maxsi (lo i) (lab i)) = lab i
  rw [hhi, hlo]
  exact clip_id (hr i).1 (hr i).2

end Vectors

end Cert.LabelWords
-- ==== Proof.KernelValue.lean ====
/-
  The kernel program's result over the extended reals. Before the region the host clips the labels to [0, 8191],
  wraps negative indices and gathers the named rows; with labels in range both steps leave the labels alone, so the
  gathered array is the rows the labels name. After the region the host sums the 16 x 128 output array from zero and
  divides by 16384: the array holds the two cores' sums at (0, 0) and (8, 0) and zeros elsewhere, so its sum is the
  sum of all 32 tile sums, which is the sum of all 16384 row distances.
-/
import proofs.«425914_j62294205661187_2_alg».proof.Proof.FinalArray
import proofs.«425914_j62294205661187_2_alg».proof.Proof.LabelWords
import Idealize.ShloMosaic.Lib.StableHlo.Run
import Idealize.ShloMosaic.Lib.Pipeline.FrameSuffix
import Idealize.ShloMosaic.PureOps.Ideal.Laws

noncomputable section

namespace Cert.KernelIdeal.KValue

open Idealize.ShloMosaic Idealize.ShloMosaic.TcCoe Idealize.ShloMosaic.ValueIdx Idealize.SL.Sem Idealize.ShloMosaic.StableHlo
open Cert.KernelIdeal Cert.KernelIdeal.Gen Cert.MeanDistance Cert.KernelIdeal.Accum Cert.KernelIdeal.Final

variable (m : (ℓ : Loc nD τ sig) → Buf (Elt Ideal) ℓ)

/-- The table of rows and the labels, as launched. -/
abbrev table (c : Dev nD) : FVec Ideal S8192x1024 .f32 := m ((c.tc : Thread nD τ).loc main_arg1)
abbrev labels (c : Dev nD) : IVec S16384 32 := m ((c.tc : Thread nD τ).loc main_arg2)

/-- The labels clipped to [0, 8191]. -/
abbrev clipped (c : Dev nD) : IVec S16384 32 :=
  minsi (broadcastInDim S16384 ![] bcast_S_S16384 (id (constantI S_ 32 8191#32)))
    (maxsi (broadcastInDim S16384 ![] bcast_S_S16384 (id (constantI S_ 32 0#32))) (labels m c))

/-- The rows of the table a vector of start indices names. -/
abbrev rowsAt (c : Dev nD) (idx : IVec S16384 32) : FVec Ideal S16384x1024 .f32 :=
  Host.gather gather_S8192x1024_S16384x1_S16384x1024_1_0_n_n_0_1_11024 (table m c)
    (broadcastInDim S16384x1 ![0] bcast_S16384_S16384x1_0 idx)

/-- The region finds the inputs array as launched. -/
theorem xarr_eq (c : Dev nD) : xarr m c = m ((c.tc : Thread nD τ).loc main_arg0) := V_main_arg0 m c

/-- What the host lines before the region leave in the gathered array. -/
theorem yarr_host (c : Dev nD) : yarr m c = rowsAt m c
    (select (cmpi .slt (clipped m c) (broadcastInDim S16384 ![] bcast_S_S16384 (constantI S_ 32 0#32)))
      (addi (clipped m c) (broadcastInDim S16384 ![] bcast_S_S16384 (constantI S_ 32 8192#32))) (clipped m c)) := by
  show (V m c main_v7 : S16384x1024.Idx → Elt Ideal .f32) = _
  dsimp only [Gen.V, Gen.V0]
  simp only [Gen.hostOps0, Gen.hostOps0_1, Gen.hostOps0_2, List.flatten_cons, List.flatten_nil, List.append_nil,
    List.cons_append, List.nil_append]
  after_results
  rfl

/-- With labels in range the gathered array is the rows the labels name. -/
theorem yarr_eq (c : Dev nD) (hr : ∀ i, 0 ≤ (labels m c i).toInt ∧ (labels m c i).toInt < 8192) :
    yarr m c = rowsAt m c (labels m c) := by
  have hc : clipped m c = labels m c :=
    Cert.LabelWords.clip_vec (labels m c) _ _ (fun _ => rfl) (fun _ => rfl) hr
  have hw : select (cmpi .slt (labels m c) (broadcastInDim S16384 ![] bcast_S_S16384 (constantI S_ 32 0#32)))
      (addi (labels m c) (broadcastInDim S16384 ![] bcast_S_S16384 (constantI S_ 32 8192#32))) (labels m c) = labels m c :=
    Cert.LabelWords.wrap_vec (labels m c) _ _ (fun _ => rfl) (fun _ => rfl) (fun i => (hr i).1)
  rw [yarr_host, hc, hw]

/-- The output array's sum is the sum of all row distances. -/
theorem sum_outArr (c : Dev nD) : ∑ i : S16x128.Idx, outArr m c i = total (xarr m c) (yarr m c) := by
  unfold outArr
  rw [sum_two_corners (coreSum m c), total_eq_tiles, tiles_halves]
  simp only [coreSum, Nat.mul_zero, Nat.zero_add, Nat.mul_one]

/-- The program's result: the sum of all row distances over 16384. -/
theorem result_eq (c : Dev nD) :
    (Pipeline.afterTail₀ cfgs (dats m) 0 (V0 m) [hostOps1] c main_v10 : S_.Idx → Elt Ideal .f32)
      = fun _ => Ideal.div (total (xarr m c) (yarr m c)) (Ideal.ofBits .f32 0x46800000#32) := by
  unfold Pipeline.afterTail₀
  show StableHlo.after hostOps1 _ (Proc.devRef .tc main_v10) = _
  after_results
  have hw : Pipeline.withArrays (cfgs 0).spec c (V0 m c) (fun w => (dats m 0 c).arrAt w (cfgs 0).N) (Proc.devRef .tc main_v8)
      = outArr m c :=
    (Pipeline.withArrays_arr spec0 launch0.win.arr_inj c _ _ 2).trans (final m c)
  rw [hw]
  funext i
  show Ideal.div (Host.reduceAdd (F := Ideal) (outArr m c) (constant S_ .f32 0x00000000#32) reducesTo_S16x128_S_d0_1 h_S_ i) _ = _
  have hs : Host.reduceAdd (F := Ideal) (outArr m c) (constant S_ .f32 0x00000000#32) reducesTo_S16x128_S_d0_1 h_S_ i
      = total (xarr m c) (yarr m c) := by
    simp only [Host.reduceAdd, Ideal.hostReduceAdd_def]
    rw [Ideal.hostReduceAdd_total reducesTo_S16x128_S_d0_1 (fun b => b.elim0), sum_outArr]
    show Ideal.ofBits .f32 0x00000000#32 + _ = _
    rw [Ideal.ofBits_zero_f32, zero_add]
  rw [hs]
  rfl

/-- The run, read: the result at the mean row distance, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v10)
        = (fun _ => Ideal.div (total (xarr m c) (yarr m c)) (Ideal.ofBits .f32 0x46800000#32) : S_.Idx → Elt Ideal .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v10 (Pipeline.mem_restRefs_of main_v10 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefValue.lean ====
/-
  The reference's result over the extended reals: the sum over the 16384 rows of the distance between the row of
  the inputs array and the gathered row, divided by 16384. The gather's start indices are the labels themselves
  once they are non-negative (the wrap of negative indices leaves them alone). Each host sum starts from the zero
  word, which is the extended real 0.
-/
import proofs.«425914_j62294205661187_2_alg».proof.Proof.Gen.ReferenceIdeal.Read
import proofs.«425914_j62294205661187_2_alg».proof.Proof.MeanDistance
import proofs.«425914_j62294205661187_2_alg».proof.Proof.LabelWords

noncomputable section

namespace Cert.ReferenceIdeal.RefValue

open Idealize.ShloMosaic Idealize.ShloMosaic.ValueIdx Cert.ReferenceIdeal Cert.ReferenceIdeal.Gen Cert.ReferenceIdeal.Read
open Cert.MeanDistance

/-- The rows of `x1` the labels `x2` name. -/
abbrev gathered (x1 : FVec Ideal S8192x1024 .f32) (x2 : IVec S16384 32) : FVec Ideal S16384x1024 .f32 :=
  Host.gather gather_S8192x1024_S16384x1_S16384x1024_1_0_n_n_0_1_11024 x1
    (broadcastInDim S16384x1 ![0] bcast_S16384_S16384x1_0 x2)

/-- With non-negative labels the reference gathers at the labels themselves. -/
theorem v6_eq (x1 : FVec Ideal S8192x1024 .f32) (x2 : IVec S16384 32) (hr : ∀ i, 0 ≤ (x2 i).toInt) :
    val_main_v6 (F := Ideal) x1 x2 = gathered x1 x2 := by
  unfold val_main_v6 val_main_v5 gathered
  have e : val_main_v4 (F := Ideal) x2 = x2 := by
    unfold val_main_v4 val_main_v1 val_main_v3
    exact Cert.LabelWords.wrap_vec x2 _ _ (fun i => by rw [val_main_v0_apply]; rfl) (fun i => by rw [val_main_v2_apply]; rfl) hr
  rw [e]

/-- A length-16384 index is its one coordinate. -/
def idxEquiv1 : S16384.Idx ≃ Fin 16384 where
  toFun j := j 0
  invFun := ix1
  left_inv j := (eq_ix1 j).symm
  right_inv _ := rfl

/-- The reference's result: the total of the row distances over 16384, whatever array `y` the gather produced. -/
theorem v12_apply (x0 : FVec Ideal S16384x1024 .f32) (x1 : FVec Ideal S8192x1024 .f32) (x2 : IVec S16384 32)
    (y : FVec Ideal S16384x1024 .f32) (hy : val_main_v6 (F := Ideal) x1 x2 = y) (i : S_.Idx) :
    val_main_v12 (F := Ideal) x0 x1 x2 i = Ideal.div (total x0 y) (Ideal.ofBits .f32 0x46800000#32) := by
  have hsum : (∑ j : S16384.Idx, val_main_v10 (F := Ideal) x0 x1 x2 j) = total x0 y := by
    unfold total
    refine Fintype.sum_equiv idxEquiv1 _ _ fun j => ?_
    rw [val_main_v10_apply, Ideal.hostUnary_sqrt_def, val_main_v9_apply, val_main_cst_apply, Ideal.ofBits_def,
      Ideal.ofBits_zero_f32, zero_add]
    unfold rowDist rowSq
    refine congrArg Ideal.sqrt (Finset.sum_congr rfl fun k _ => ?_)
    rw [val_main_v8_apply, val_main_v7_apply, hy]
    have e : idx_main_v9 j k = ix2 (idxEquiv1 j) k := by
      funext a
      match a with
      | ⟨0, _⟩ => rfl
      | ⟨1, _⟩ => rfl
    rw [e]
    rfl
  rw [val_main_v12_apply, val_main_v11_apply, hsum, val_main_cst_1_apply, val_main_cst_2_apply, Ideal.ofBits_def,
    Ideal.ofBits_def, Ideal.ofBits_zero_f32, zero_add, Ideal.hostDivf_def]

end Cert.ReferenceIdeal.RefValue

end
-- ==== Proof.PreRange.lean ====
/-
  The precondition's two conjuncts on the labels, read back: where the printed predicate holds, every label
  compares non-negative and below 8192 (each `jnp.all` is a reduction by `and` from 1 that came out 1, so every
  compared element is 1).
-/
import proofs.«425914_j62294205661187_2_alg».proof.Proof.Gen.Pre_finite_inputs
import Idealize.ShloMosaic.Lib.ReduceAll
import Idealize.ShloMosaic.Lib.ValueIdx

namespace Cert.Pre_finite_inputs.Range

open Idealize.ShloMosaic Cert.Pre_finite_inputs

/-- The scalar shape has one index. -/
instance : Subsingleton S_.Idx := ⟨fun _ _ => funext fun d => d.elim0⟩

/-- Every label passes both comparisons of the precondition. -/
theorem label_cmp {F : FTy → Type} [FloatOps F] (x0 : FVec F S16384x1024 .f32) (x1 : FVec F S8192x1024 .f32)
    (x2 : IVec S16384 32) (h : fn (F := F) x0 x1 x2 = fun _ => 1#1) (i : S16384.Idx) :
    IntOp.cmpi .sge (x2 i) 0#32 = 1#1 ∧ IntOp.cmpi .slt (x2 i) 8192#32 = 1#1 := by
  have h0 := congrFun h ValueIdx.ix0
  dsimp only [fn, fn_part1] at h0
  obtain ⟨h12, h15⟩ := IntOp.andi_eq_one.1 h0
  obtain ⟨_, h11⟩ := IntOp.andi_eq_one.1 h12
  exact ⟨Host.reduce_andi_all _ _ _ _ _ h11 i, Host.reduce_andi_all _ _ _ _ _ h15 i⟩

end Cert.Pre_finite_inputs.Range
-- ==== Proof.lean ====
/-
  The kernel computes the mean over 16384 rows of the Euclidean distance between row i of `inputs` and row
  label[i] of `recovers`, as does the reference. Under the precondition (finite float inputs, labels in [0, 8192))
  both programs gather the same rows: the reference's wrap of negative indices and the kernel's clip to [0, 8191]
  leave an in-range label alone. The kernel then adds the row distances tile by tile (32 tiles of 512 rows, 16 per
  core) into the corner of each core's output block, sums the 16 x 128 output array and divides by 16384; the
  reference sums the 16384 row distances and divides by 16384. Over the extended reals addition is commutative and
  associative, so the regrouped sum is the same sum; square root, difference, product and the final division are the
  same operations on both sides. The precondition's finiteness conjuncts are not used.

  The three frames are the generated ones (the reference's is its run with the result dropped); the idealization
  rewrote nothing, so `preserves` is trivial.
-/
import proofs.«425914_j62294205661187_2_alg».proof.Defs
import proofs.«425914_j62294205661187_2_alg».proof.Proof.Gen.Kernel
import proofs.«425914_j62294205661187_2_alg».proof.Proof.Gen.Kernel.Skeleton
import proofs.«425914_j62294205661187_2_alg».proof.Proof.Gen.Kernel.Launch
import proofs.«425914_j62294205661187_2_alg».proof.Proof.Gen.Kernel.Points
import proofs.«425914_j62294205661187_2_alg».proof.Proof.Gen.Kernel.Frame
import proofs.«425914_j62294205661187_2_alg».proof.Proof.Gen.KernelIdeal
import proofs.«425914_j62294205661187_2_alg».proof.Proof.Gen.KernelIdeal.Skeleton
import proofs.«425914_j62294205661187_2_alg».proof.Proof.Gen.KernelIdeal.Launch
import proofs.«425914_j62294205661187_2_alg».proof.Proof.Gen.KernelIdeal.Points
import proofs.«425914_j62294205661187_2_alg».proof.Proof.Gen.KernelIdeal.Frame
import proofs.«425914_j62294205661187_2_alg».proof.Proof.Gen.ReferenceIdeal
import proofs.«425914_j62294205661187_2_alg».proof.Proof.Gen.ReferenceIdeal.Run
import proofs.«425914_j62294205661187_2_alg».proof.Proof.Gen.ReferenceIdeal.Read
import proofs.«425914_j62294205661187_2_alg».proof.Proof.Gen.Pre_finite_inputs
import proofs.«425914_j62294205661187_2_alg».proof.Proof.KernelValue
import proofs.«425914_j62294205661187_2_alg».proof.Proof.RefValue
import proofs.«425914_j62294205661187_2_alg».proof.Proof.PreRange
import Idealize.ShloMosaic.Adequacy
import Idealize.ShloMosaic.Init

noncomputable section

namespace Cert.Proof

open Idealize.ShloMosaic Idealize.SL.Sem Cert.MeanDistance

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the mean row distance between `inputs` and the rows of `recovers` the labels name. -/
theorem algebraic : Cert.algebraic_KernelIdeal_ReferenceIdeal := by
  intro m ρ m' ρ' hpre hagree
  have hr : ∀ (c : Dev Cert.KernelIdeal.nD) (i : Cert.KernelIdeal.S16384.Idx),
      0 ≤ (Cert.KernelIdeal.KValue.labels m c i).toInt ∧ (Cert.KernelIdeal.KValue.labels m c i).toInt < 8192 := fun c i =>
    have h := Cert.Pre_finite_inputs.Range.label_cmp _ _ _ (hpre c) i
    Cert.LabelWords.range_of_cmp h.1 h.2
  refine ⟨fun c => (fun _ => Ideal.div (total (Cert.KernelIdeal.Accum.xarr m c) (Cert.KernelIdeal.Accum.yarr m c))
    (Ideal.ofBits .f32 0x46800000#32) : Cert.KernelIdeal.S_.Idx → Elt Ideal .f32), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2.1, (hagree c).2.2]
  funext i
  rw [Cert.ReferenceIdeal.RefValue.v12_apply _ _ _ _
    (Cert.ReferenceIdeal.RefValue.v6_eq _ _ (fun j => (hr c j).1)) i]
  show _ = Ideal.div (total (Cert.KernelIdeal.Accum.xarr m c) (Cert.KernelIdeal.Accum.yarr m c)) _
  rw [Cert.KernelIdeal.KValue.xarr_eq, Cert.KernelIdeal.KValue.yarr_eq m c (hr c)]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
